-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x256 .f32) (main_arg1 : FVec F S256x128 .f32) (main_arg2 : FVec F S128 .f32) (main_arg3 : IVec S1600000 32) (main_arg4 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x256 : Shape := ⟨2, ![100000, 256]⟩
abbrev S256x128 : Shape := ⟨2, ![256, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1600000x128 : Shape := ⟨2, ![1600000, 128]⟩
abbrev S1x128 : Shape := ⟨2, ![1, 128]⟩

abbrev nBuf : Space → Nat
  | .hbm => 35
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S1x128, .f32⟩
  | .hbm, ⟨34, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x256, .f32⟩
  | .hbm, ⟨20, _⟩ => ⟨S100000x256, .f32⟩
  | .hbm, ⟨21, _⟩ => ⟨S100000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelBoundaries.lean ====
/-
  The contents of the kernel program's buffers at the boundaries between its host stretches and its two kernel regions,
  read back to the launch memory.

  Before the first region the host computes the norm column from the destination indices: the in-degree of each node
  (a scatter-add of ones), clipped below at one, raised to the power −1/2, laid out as a column (`normCol`). Between
  the regions it gathers the rows of the first region's result named by the (wrapped) source indices and scatter-adds
  them into the rows named by the destination indices (`aggregate`), and lays the bias vector out as one row. No
  host operation writes an argument array, so at every boundary the arguments hold their launch contents.
-/
import proofs.«178011_j14001593385076_1_alg».proof.Proof.Gen.KernelIdeal.Frame
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]

/-- The norm column: in-degree by destination index, clipped below at one, to the power −1/2, as a column. -/
def normCol (dst : S1600000.Idx → Elt F .i32) : S100000x1.Idx → Elt F .f32 :=
  broadcastInDim S100000x1 ![0] bcast_S100000_S100000x1_0
    (Host.powf
      (maximumf (broadcastInDim S100000 ![] bcast_S_S100000 (id (constant (F := F) S_ .f32 0x3F800000#32)))
        (Host.scatterAdd scatter_S100000_S1600000x1_S1600000_n_0_0_1
          (broadcastInDim S100000 ![] bcast_S_S100000 (constant (F := F) S_ .f32 0x00000000#32))
          (broadcastInDim S1600000x1 ![0] bcast_S1600000_S1600000x1_0 dst)
          (broadcastInDim S1600000 ![] bcast_S_S1600000 (constant (F := F) S_ .f32 0x3F800000#32))))
      (broadcastInDim S100000 ![] bcast_S_S100000 (constant (F := F) S_ .f32 0xBF000000#32)))

/-- The sparse sum: the rows of `H` named by the source indices (a negative one wrapped by the row count) added
    into the rows named by the destination indices. -/
def aggregate (H : S100000x128.Idx → Elt F .f32) (src dst : S1600000.Idx → Elt F .i32) :
    S100000x128.Idx → Elt F .f32 :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst)
    (Host.gather gather_S100000x128_S1600000x1_S1600000x128_1_0_n_n_0_1_1128 H
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

variable (m : (ℓ : Loc nD τ sig) → Buf (Elt F) ℓ) (ρ : Dev nD → PrngReg)

/-! ## The first region's entry contents -/

theorem W3_v7 (c : Dev nD) :
    W3 m ρ c (Proc.devRef .tc main_v7) = normCol (m ((c.tc : Thread nD τ).loc main_arg4)) := by
  dsimp only [W3, W2, W1, hostOps0, hostOps0_1, hostOps0_2]
  after_results
  rfl

theorem W3_arg0 (c : Dev nD) : W3 m ρ c (Proc.devRef .tc main_arg0) = m ((c.tc : Thread nD τ).loc main_arg0) := by
  dsimp only [W3, W2, W1, hostOps0, hostOps0_1, hostOps0_2]
  after_results

theorem W3_arg1 (c : Dev nD) : W3 m ρ c (Proc.devRef .tc main_arg1) = m ((c.tc : Thread nD τ).loc main_arg1) := by
  dsimp only [W3, W2, W1, hostOps0, hostOps0_1, hostOps0_2]
  after_results

theorem W3_arg2 (c : Dev nD) : W3 m ρ c (Proc.devRef .tc main_arg2) = m ((c.tc : Thread nD τ).loc main_arg2) := by
  dsimp only [W3, W2, W1, hostOps0, hostOps0_1, hostOps0_2]
  after_results

theorem W3_arg3 (c : Dev nD) : W3 m ρ c (Proc.devRef .tc main_arg3) = m ((c.tc : Thread nD τ).loc main_arg3) := by
  dsimp only [W3, W2, W1, hostOps0, hostOps0_1, hostOps0_2]
  after_results

theorem W3_arg4 (c : Dev nD) : W3 m ρ c (Proc.devRef .tc main_arg4) = m ((c.tc : Thread nD τ).loc main_arg4) := by
  dsimp only [W3, W2, W1, hostOps0, hostOps0_1, hostOps0_2]
  after_results

/-! ## The first region's exit contents, off its result -/

theorem W4_v7 (c : Dev nD) : W4 m ρ c (Proc.devRef .tc main_v7) = normCol (m ((c.tc : Thread nD τ).loc main_arg4)) :=
  (W4_arr m ρ c 1).trans ((((dat0 (V3 m ρ) c).arrAt_in 1 rfl _).trans (A_eq0 (V3 m ρ) c 1)).trans (W3_v7 m ρ c))

theorem W4_arg2 (c : Dev nD) : W4 m ρ c (Proc.devRef .tc main_arg2) = m ((c.tc : Thread nD τ).loc main_arg2) :=
  (W4_of_ne m ρ c main_arg2 (by decide)).trans (W3_arg2 m ρ c)

theorem W4_arg3 (c : Dev nD) : W4 m ρ c (Proc.devRef .tc main_arg3) = m ((c.tc : Thread nD τ).loc main_arg3) :=
  (W4_of_ne m ρ c main_arg3 (by decide)).trans (W3_arg3 m ρ c)

theorem W4_arg4 (c : Dev nD) : W4 m ρ c (Proc.devRef .tc main_arg4) = m ((c.tc : Thread nD τ).loc main_arg4) :=
  (W4_of_ne m ρ c main_arg4 (by decide)).trans (W3_arg4 m ρ c)

/-! ## The second region's entry contents -/

theorem W5_v18 (c : Dev nD) :
    W5 m ρ c (Proc.devRef .tc main_v18)
      = aggregate (W4 m ρ c (Proc.devRef .tc main_v8)) (m ((c.tc : Thread nD τ).loc main_arg3))
          (m ((c.tc : Thread nD τ).loc main_arg4)) := by
  rw [← W4_arg3 m ρ c, ← W4_arg4 m ρ c]
  dsimp only [W5, hostOps1]
  after_results
  rfl

theorem W5_v7 (c : Dev nD) : W5 m ρ c (Proc.devRef .tc main_v7) = normCol (m ((c.tc : Thread nD τ).loc main_arg4)) := by
  rw [← W4_v7 m ρ c]
  dsimp only [W5, hostOps1]
  after_results

theorem W5_v19 (c : Dev nD) :
    W5 m ρ c (Proc.devRef .tc main_v19)
      = shapeCast S1x128 (m ((c.tc : Thread nD τ).loc main_arg2)) shapeCasts_S128_S1x128 := by
  rw [← W4_arg2 m ρ c]
  dsimp only [W5, hostOps1]
  after_results
  rfl

end Cert.KernelIdeal.Whole

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.LibScaledRows.lean ====
/-
  Rows scaled by a column and then multiplied by a matrix, read at an index at the ideal values.

  Let X be an a×k matrix, v a column of a entries and W a k×n matrix. Scaling row p of X by v(p) and multiplying by W
  gives, at (p, q), the sum over l of (X(p, l)·v(p))·W(l, q). A kernel spells the scaling with a column broadcast
  along the rows and rounds both operands to a narrower format before the product into a zero accumulator; at the
  ideal values a change of format is the identity, so the rounding drops out. The host spells the scaling with a
  broadcast in dimensions [0, 1] and takes the product directly. Both read the same sum.

  A column [a, 1] laid along axes 0 and 1 of an [a, b] matrix repeats entry p along row p.
-/
import Idealize.ShloMosaic.PureOps.Ideal.Laws
import Idealize.ShloMosaic.Lib.ValueIdx
import Idealize.ShloMosaic.Lib.Pipeline.Value
import proofs.«178011_j14001593385076_1_alg».proof.Proof.LibDenseLayer
import proofs.«178011_j14001593385076_1_alg».proof.Proof.LibRowOps

noncomputable section

namespace Idealize.ShloMosaic.ScaledRows

open Idealize.ShloMosaic Idealize.ShloMosaic.ValueIdx

/-- An `[a, 1]` column laid along axes 0 and 1 of `[a, b]` reads, at `(p, c)`, the column's entry `p`. -/
theorem broadcastInDim_a1_ab_apply {α : Type} {a b : ℕ}
    (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

variable {a k n : ℕ}

/-- The kernel's spelling: rows scaled by a broadcast column, both operands rounded, the product into the zero
    accumulator, read at `(p, q)`. -/
theorem matmul_scaled_apply {ψ : FTy}
    (w : DotDims.WF ⟨2, ![a, k]⟩ ⟨2, ![k, n]⟩ ⟨2, ![a, n]⟩ [1] [0] [0] [1] [] [])
    (prec : Option ContractPrecision)
    (X : FVec Ideal ⟨2, ![a, k]⟩ .f32) (v : FVec Ideal ⟨2, ![a, 1]⟩ .f32) (W : FVec Ideal ⟨2, ![k, n]⟩ .f32)
    (h1 : (⟨2, ![a, 1]⟩ : Shape).ShapeCasts ⟨2, ![a, 1]⟩) (h2 : (⟨2, ![a, 1]⟩ : Shape).Broadcasts ⟨2, ![a, k]⟩)
    (hb : ψ.bits < FTy.f32.bits) (p : Fin a) (q : Fin n) :
    FloatOps.matmul (⟨[1], [0], [0], [1], [], [], w⟩ : DotDims _ _ _) prec
        (truncf ψ (mulf X (broadcastTo ⟨2, ![a, k]⟩ (shapeCast ⟨2, ![a, 1]⟩ v h1) h2)) hb) (truncf ψ W hb)
        (constant ⟨2, ![a, n]⟩ .f32 0x00000000#32) (ix2 p q)
      = ∑ l : Fin k, (X (ix2 p l) * v (ix2 p (0 : Fin 1))) * W (ix2 l q) := by
  rw [DenseLayer.matmul_rows_apply]
  refine Finset.sum_congr rfl fun l _ => ?_
  rw [truncf_apply, truncf_apply, mulf_apply, RowOps.broadcastTo_a1_ab_apply, shapeCast_self]

/-- The host's spelling: rows scaled by a column laid along axes 0 and 1, the product taken directly, read at
    `(p, q)`. -/
theorem dotGeneral_scaled_apply
    (w : DotDims.WF ⟨2, ![a, k]⟩ ⟨2, ![k, n]⟩ ⟨2, ![a, n]⟩ [1] [0] [0] [1] [] [])
    (prec : Option ContractPrecision) (sched : HostSchedule)
    (X : FVec Ideal ⟨2, ![a, k]⟩ .f32) (v : FVec Ideal ⟨2, ![a, 1]⟩ .f32) (W : FVec Ideal ⟨2, ![k, n]⟩ .f32)
    (h : (⟨2, ![a, 1]⟩ : Shape).BroadcastsInDim ⟨2, ![a, k]⟩ ![0, 1]) (p : Fin a) (q : Fin n) :
    FloatOps.dotGeneral (⟨[1], [0], [0], [1], [], [], w⟩ : DotDims _ _ _) prec sched
        (mulf X (broadcastInDim ⟨2, ![a, k]⟩ ![0, 1] h v)) W (ix2 p q)
      = ∑ l : Fin k, (X (ix2 p l) * v (ix2 p (0 : Fin 1))) * W (ix2 l q) := by
  rw [DenseLayer.dotGeneral_rows_apply]
  refine Finset.sum_congr rfl fun l _ => ?_
  rw [mulf_apply, broadcastInDim_a1_ab_apply]

end Idealize.ShloMosaic.ScaledRows

end
-- ==== Proof.ProjectValue.lean ====
/-
  The first kernel region, read as one whole array.

  The region walks the 100000 rows in 20 blocks of 5000. At block t it takes rows 5000·t … 5000·t + 4999 of the
  feature matrix X and of the norm column v, and the whole weight matrix W, and writes rows 5000·t … of the result:
  entry (p, q) of the block is Σ_l (X(5000·t + p, l)·v(5000·t + p))·W(l, q). Row r of the result therefore depends on
  row r of X, entry r of v and all of W, and on nothing else: every block is the restriction to its rows of the one
  whole-array function `proj X v W`, (r, h) ↦ Σ_l (X(r, l)·v(r))·W(l, h). The 20 blocks tile the rows, so the array
  ends holding `proj` of the arrays the region found.
-/
import proofs.«178011_j14001593385076_1_alg».proof.Proof.Gen.KernelIdeal.Frame
import proofs.«178011_j14001593385076_1_alg».proof.Proof.LibScaledRows
import Idealize.ShloMosaic.Lib.Pipeline.Value
import Idealize.ShloMosaic.Lib.ValueIdx
import Idealize.ShloMosaic.PureOps.Ideal.Laws

set_option maxRecDepth 16384

noncomputable section

namespace Cert.KernelIdeal.Project

open Cert.KernelIdeal Cert.KernelIdeal.Gen
open Idealize.ShloMosaic Idealize.ShloMosaic.TcCoe Idealize.ShloMosaic.ValueIdx Idealize.SL.Sem
open Idealize.ShloMosaic.Pipeline (Dat)

/-- Rows scaled by the norm column, then the dense product: (r, h) ↦ Σ_l (X(r, l)·v(r))·W(l, h). -/
def proj (X : S100000x256.Idx → EReal) (v : S100000x1.Idx → EReal) (W : S256x128.Idx → EReal) : S100000x128.Idx → EReal :=
  fun i => ∑ l : Fin 256, (X (ix2 (i 0 : Fin 100000) l) * v (ix2 (i 0 : Fin 100000) (0 : Fin 1))) * W (ix2 l (i 1 : Fin 128))

theorem hz : (![0, 0] : Fin 2 → Nat) = fun _ => 0 := funext fun a => by fin_cases a <;> rfl

/-- The body's one stored value at (p, q), from the three blocks it loads. -/
theorem pay_apply (x0 : Vec Ideal S5000x256 .f32) (x1 : Vec Ideal S5000x1 .f32) (x2 : Vec Ideal S256x128 .f32)
    (p : Fin 5000) (q : Fin 128) :
    k0_pay1 (F := Ideal) x0 x1 x2 (ix2 p q)
      = ∑ l : Fin 256, (x0 (ix2 p l) * x1 (ix2 p (0 : Fin 1))) * x2 (ix2 l q) := by
  unfold k0_pay1
  exact ScaledRows.matmul_scaled_apply _ none x0 x1 x2 _ _ _ p q

variable (V : (c : Dev nD) → (b : Ref sig .tc) → Buf (Elt Ideal) ((c : Thread nD τ).loc b))

/-- The index maps over the grid: the row blocks of X, of v and of the result move with the point, the weights stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `proj` of the arrays the region found. -/
theorem flushed_eq (c : Dev nD) (t : Fin cfg0.N) :
    (dat0 V c).flushed 3 t
      = ((cfg0.win 3).blk t).view.read (Elt Ideal) (proj (V c main_arg0) (V c main_v7) (V c main_arg1)) := by
  show (cfg0.win 3).cut (grid0.coords t) ((dat0 V c).after 3 t) = _
  rw [after0_3]
  unfold out0_3
  rw [View.canon_unit_zero hz]
  simp only [View.ld_unit_zero (S := S5000x256) hz, View.ld_unit_zero (S := S5000x1) hz,
    View.ld_unit_zero (S := S256x128) hz]
  obtain ⟨e00, e01, e10, e11, e20, e21, e30, e31⟩ := idx_facts t
  funext j
  obtain ⟨p, q, rfl⟩ : ∃ (p : Fin 5000) (q : Fin 128), j = ix2 p q := ⟨j 0, j 1, eq_ix2 j⟩
  refine (pay_apply (iblk0 V c 0 t) (iblk0 V c 1 t) (iblk0 V c 2 t) p q).trans ?_
  show _ = proj (V c main_arg0) (V c main_v7) (V c main_arg1) (((cfg0.win 3).blk t).view.emb (ix2 p q))
  unfold proj
  refine Finset.sum_congr rfl fun l _ => ?_
  have h0 : iblk0 V c 0 t (ix2 p l)
      = V c main_arg0 (ix2 ((((cfg0.win 3).blk t).view.emb (ix2 p q)) 0 : Fin 100000) l) := by
    show V c main_arg0 (((cfg0.win 0).blk t).view.emb (ix2 p l)) = _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * l.val = l.val; omega
  have h1 : iblk0 V c 1 t (ix2 p (0 : Fin 1))
      = V c main_v7 (ix2 ((((cfg0.win 3).blk t).view.emb (ix2 p q)) 0 : Fin 100000) (0 : Fin 1)) := by
    show V c main_v7 (((cfg0.win 1).blk t).view.emb (ix2 p (0 : Fin 1))) = _
    refine congrArg (V c main_v7) (funext fun a => Fin.ext ?_)
    match a with
    | ⟨0, _⟩ => show win0_1.index t (0 : Fin 2) * 5000 + 1 * p.val = win0_3.index t (0 : Fin 2) * 5000 + 1 * p.val; omega
    | ⟨1, _⟩ => show win0_1.index t (1 : Fin 2) * 1 + 1 * 0 = 0; omega
  have h2 : iblk0 V c 2 t (ix2 l q)
      = V c main_arg1 (ix2 l ((((cfg0.win 3).blk t).view.emb (ix2 p q)) 1 : Fin 128)) := by
    show V c main_arg1 (((cfg0.win 2).blk t).view.emb (ix2 l q)) = _
    refine congrArg (V c main_arg1) (funext fun a => Fin.ext ?_)
    match a with
    | ⟨0, _⟩ => show win0_2.index t (0 : Fin 2) * 256 + 1 * l.val = l.val; omega
    | ⟨1, _⟩ => show win0_2.index t (1 : Fin 2) * 128 + 1 * q.val = win0_3.index t (1 : Fin 2) * 128 + 1 * q.val; omega
  rw [h0, h1, h2]

/-- An index of the result array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v8).slice (win0_3.rect t)).set ↔ _
  rw [View.set_slice_whole, Rect.mem_set_unit]
  exact Iff.rfl

/-- The 20 row blocks tile the array: row r lies in the block of point r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The result array after the region is `proj` of the arrays the region found. -/
theorem arr_eq (c : Dev nD) :
    (dat0 V c).arrAt 3 cfg0.N = proj (V c main_arg0) (V c main_v7) (V c main_arg1) :=
  (dat0 V c).arrAt_eq_of_cover 3 _ (fun t _ => flushed_eq V c t) cover

end Cert.KernelIdeal.Project

end
-- ==== Proof.FinalizeValue.lean ====
/-
  The second kernel region, read as one whole array.

  The region walks the 100000 rows in 20 blocks of 5000. At block t it takes rows 5000·t … 5000·t + 4999 of the
  aggregated matrix A and of the norm column v, and the one bias row b, and writes rows 5000·t … of the result:
  entry (p, q) of the block is A(5000·t + p, q)·v(5000·t + p) + b(q). Every block is the restriction to its rows of the
  one whole-array function `scaleBias A v b`, (r, h) ↦ A(r, h)·v(r) + b(h). The 20 blocks tile the rows, so the array
  ends holding `scaleBias` of the arrays the region found.
-/
import proofs.«178011_j14001593385076_1_alg».proof.Proof.Gen.KernelIdeal.Frame
import proofs.«178011_j14001593385076_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Finalize

open Cert.KernelIdeal Cert.KernelIdeal.Gen
open Idealize.ShloMosaic Idealize.ShloMosaic.TcCoe Idealize.ShloMosaic.ValueIdx Idealize.SL.Sem
open Idealize.ShloMosaic.Pipeline (Dat)

/-- Rows scaled by the norm column, the bias row added: (r, h) ↦ A(r, h)·v(r) + b(h). -/
def scaleBias (A : S100000x128.Idx → EReal) (v : S100000x1.Idx → EReal) (b : S1x128.Idx → EReal) : S100000x128.Idx → EReal :=
  fun i => A (ix2 (i 0 : Fin 100000) (i 1 : Fin 128)) * v (ix2 (i 0 : Fin 100000) (0 : Fin 1)) + b (ix2 (0 : Fin 1) (i 1 : Fin 128))

theorem hz : (![0, 0] : Fin 2 → Nat) = fun _ => 0 := funext fun a => by fin_cases a <;> rfl

/-- The body's one stored value at (p, q), from the three blocks it loads. -/
theorem pay_apply (x0 : Vec Ideal S5000x128 .f32) (x1 : Vec Ideal S5000x1 .f32) (x2 : Vec Ideal S1x128 .f32)
    (p : Fin 5000) (q : Fin 128) :
    k1_pay1 (F := Ideal) x0 x1 x2 (ix2 p q)
      = x0 (ix2 p q) * x1 (ix2 p (0 : Fin 1)) + x2 (ix2 (0 : Fin 1) q) := by
  unfold k1_pay1
  rw [addf_apply, mulf_apply, RowOps.broadcastTo_a1_ab_apply, broadcastTo_1b_ab_apply, shapeCast_self, shapeCast_self,
    shapeCast_self]

variable (V : (c : Dev nD) → (b : Ref sig .tc) → Buf (Elt Ideal) ((c : Thread nD τ).loc b))

/-- The index maps over the grid: the row blocks of A, of v and of the result move with the point, the bias row stays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `scaleBias` of the arrays the region found. -/
theorem flushed_eq (c : Dev nD) (t : Fin cfg1.N) :
    (dat1 V c).flushed 3 t
      = ((cfg1.win 3).blk t).view.read (Elt Ideal) (scaleBias (V c main_v18) (V c main_v7) (V c main_v19)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz,
    View.ld_unit_zero (S := S1x128) hz]
  obtain ⟨e00, e01, e10, e11, e20, e21, e30, e31⟩ := idx_facts t
  funext j
  obtain ⟨p, q, rfl⟩ : ∃ (p : Fin 5000) (q : Fin 128), j = ix2 p q := ⟨j 0, j 1, eq_ix2 j⟩
  refine (pay_apply (iblk1 V c 0 t) (iblk1 V c 1 t) (iblk1 V c 2 t) p q).trans ?_
  show _ = scaleBias (V c main_v18) (V c main_v7) (V c main_v19) (((cfg1.win 3).blk t).view.emb (ix2 p q))
  unfold scaleBias
  have h0 : iblk1 V c 0 t (ix2 p q)
      = V c main_v18 (ix2 ((((cfg1.win 3).blk t).view.emb (ix2 p q)) 0 : Fin 100000)
          ((((cfg1.win 3).blk t).view.emb (ix2 p q)) 1 : Fin 128)) := by
    show V c main_v18 (((cfg1.win 0).blk t).view.emb (ix2 p q)) = _
    refine congrArg (V c main_v18) (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  have h1 : iblk1 V c 1 t (ix2 p (0 : Fin 1))
      = V c main_v7 (ix2 ((((cfg1.win 3).blk t).view.emb (ix2 p q)) 0 : Fin 100000) (0 : Fin 1)) := by
    show V c main_v7 (((cfg1.win 1).blk t).view.emb (ix2 p (0 : Fin 1))) = _
    refine congrArg (V c main_v7) (funext fun a => Fin.ext ?_)
    match a with
    | ⟨0, _⟩ => show win1_1.index t (0 : Fin 2) * 5000 + 1 * p.val = win1_3.index t (0 : Fin 2) * 5000 + 1 * p.val; omega
    | ⟨1, _⟩ => show win1_1.index t (1 : Fin 2) * 1 + 1 * 0 = 0; omega
  have h2 : iblk1 V c 2 t (ix2 (0 : Fin 1) q)
      = V c main_v19 (ix2 (0 : Fin 1) ((((cfg1.win 3).blk t).view.emb (ix2 p q)) 1 : Fin 128)) := by
    show V c main_v19 (((cfg1.win 2).blk t).view.emb (ix2 (0 : Fin 1) q)) = _
    refine congrArg (V c main_v19) (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [h0, h1, h2]

/-- An index of the result array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v20).slice (win1_3.rect t)).set ↔ _
  rw [View.set_slice_whole, Rect.mem_set_unit]
  exact Iff.rfl

/-- The 20 row blocks tile the array: row r lies in the block of point r / 5000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, e30, e31⟩ := idx_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- The result array after the region is `scaleBias` of the arrays the region found. -/
theorem arr_eq (c : Dev nD) :
    (dat1 V c).arrAt 3 cfg1.N = scaleBias (V c main_v18) (V c main_v7) (V c main_v19) :=
  (dat1 V c).arrAt_eq_of_cover 3 _ (fun t _ => flushed_eq V c t) cover

end Cert.KernelIdeal.Finalize

end
-- ==== Proof.KernelValue.lean ====
/-
  The whole kernel program's result, as one function of its five argument arrays, at the ideal values.

  The first region leaves `proj X v W`: the features' rows scaled by the norm column v and multiplied by the weights.
  The host then forms the sparse sum `aggregate` of that array's rows along the edges. The second region leaves
  `scaleBias A v b` of the aggregate A, the same norm column and the bias row. With each boundary's contents read
  back to the launch memory, the result is

    scaleBias (aggregate (proj X v W) src dst) v b,   v = normCol dst,

  a function of the launch contents of the five arguments alone.
-/
import proofs.«178011_j14001593385076_1_alg».proof.Proof.KernelRun
import proofs.«178011_j14001593385076_1_alg».proof.Proof.KernelBoundaries
import proofs.«178011_j14001593385076_1_alg».proof.Proof.ProjectValue
import proofs.«178011_j14001593385076_1_alg».proof.Proof.FinalizeValue
import Idealize.ShloMosaic.PureOps.Ideal

set_option maxRecDepth 16384

noncomputable section

namespace Cert.KernelIdeal.Whole

open Cert.KernelIdeal Cert.KernelIdeal.Gen
open Idealize.ShloMosaic Idealize.ShloMosaic.TcCoe Idealize.SL.Sem

/-- The program's result as a function of five arrays. -/
def resultOf (X : S100000x256.Idx → Elt Ideal .f32) (W : S256x128.Idx → Elt Ideal .f32) (b : S128.Idx → Elt Ideal .f32)
    (src dst : S1600000.Idx → Elt Ideal .i32) : S100000x128.Idx → Elt Ideal .f32 :=
  Finalize.scaleBias (aggregate (Project.proj X (normCol dst) W) src dst) (normCol dst)
    (shapeCast S1x128 b shapeCasts_S128_S1x128)

variable (m : (ℓ : Loc nD τ sig) → Buf (Elt Ideal) ℓ) (ρ : Dev nD → PrngReg)

/-- The first region's result array at its exit. -/
theorem W4_v8 (c : Dev nD) :
    W4 m ρ c (Proc.devRef .tc main_v8)
      = Project.proj (m ((c.tc : Thread nD τ).loc main_arg0)) (normCol (m ((c.tc : Thread nD τ).loc main_arg4)))
          (m ((c.tc : Thread nD τ).loc main_arg1)) := by
  refine (W4_arr m ρ c 3).trans ((Project.arr_eq (V3 m ρ) c).trans ?_)
  show Project.proj (W3 m ρ c (Proc.devRef .tc main_arg0)) (W3 m ρ c (Proc.devRef .tc main_v7))
      (W3 m ρ c (Proc.devRef .tc main_arg1)) = _
  rw [W3_arg0, W3_v7, W3_arg1]

/-- The program's result array at the last boundary. -/
theorem W6_v20 (c : Dev nD) :
    W6 m ρ c (Proc.devRef .tc main_v20)
      = resultOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  refine (W6_arr m ρ c 3).trans ((Finalize.arr_eq (V5 m ρ) c).trans ?_)
  show Finalize.scaleBias (W5 m ρ c (Proc.devRef .tc main_v18)) (W5 m ρ c (Proc.devRef .tc main_v7))
      (W5 m ρ c (Proc.devRef .tc main_v19)) = _
  rw [W5_v18, W5_v7, W5_v19, W4_v8]
  rfl

/-- The run of the kernel program with its result named as that function of the arguments. -/
theorem run : θ_run defs (onTc (τ := τ) (main (F := Ideal))) ⟨m, fun _ => 0, ρ⟩ (fun r => ∀ c : Dev nD,
      r.2.mem ((c.tc : Thread nD τ).loc main_v20)
        = resultOf (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W6_v20 m ρ c), (h c).2⟩) (GenRun.run_result m ρ)

end Cert.KernelIdeal.Whole

end
-- ==== Proof.RefValue.lean ====
/-
  The reference program computes the same function of the five arguments as the kernel program.

  The reference spells the projection as the host's product of (X scaled by the norm column laid along axes 0 and 1)
  with W; read at (r, h) that is Σ_l (X(r, l)·v(r))·W(l, h), the kernel's `proj`. It spells the last stage as the
  aggregate times the norm column laid along axes 0 and 1, plus the bias laid along axis 1 of one row and that row
  repeated down the rows; read at (r, h) that is A(r, h)·v(r) + b(h), the kernel's `scaleBias` of the bias cast to one
  row. The norm column and the sparse sum in between are the same host operations in both programs. So the two
  results are one function; no law of arithmetic beyond reading both sides at an index is used, and finiteness of the
  inputs is not needed.
-/
import proofs.«178011_j14001593385076_1_alg».proof.Proof.Gen.ReferenceIdeal.Run
import proofs.«178011_j14001593385076_1_alg».proof.Proof.KernelValue
import proofs.«178011_j14001593385076_1_alg».proof.Proof.LibScaledRows
import proofs.«178011_j14001593385076_1_alg».proof.Proof.LibDenseLayer
import Idealize.ShloMosaic.Lib.ValueIdx
import Idealize.ShloMosaic.Lib.ValueLayout
import Idealize.ShloMosaic.PureOps.Ideal

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem

/-- The reference's projection is the kernel's `proj`. -/
theorem proj_eq (X : FVec Ideal S100000x256 .f32) (v : FVec Ideal S100000x1 .f32) (W : FVec Ideal S256x128 .f32) :
    Host.dotGeneral (F := Ideal) dot_S100000x256_S256x128_S100000x128_1_0_0_1_n_n none
        (mulf X (broadcastInDim S100000x256 ![0, 1] bcast_S100000x1_S100000x256_0_1 v)) W
      = Cert.KernelIdeal.Project.proj X v W := by
  funext i
  obtain ⟨r, h, rfl⟩ : ∃ (r : Fin 100000) (h : Fin 128), i = ix2 r h := ⟨i 0, i 1, eq_ix2 i⟩
  exact ScaledRows.dotGeneral_scaled_apply _ none .single X v W _ r h

/-- The reference's last stage is the kernel's `scaleBias` of the bias cast to one row. -/
theorem scaleBias_eq (A : FVec Ideal S100000x128 .f32) (v : FVec Ideal S100000x1 .f32) (b : FVec Ideal S128 .f32) :
    addf (F := Ideal) (mulf A (broadcastInDim S100000x128 ![0, 1] bcast_S100000x1_S100000x128_0_1 v))
        (broadcastInDim S100000x128 ![0, 1] bcast_S1x128_S100000x128_0_1 (broadcastInDim S1x128 ![1] bcast_S128_S1x128_1 b))
      = Cert.KernelIdeal.Finalize.scaleBias A v
          (shapeCast Cert.KernelIdeal.S1x128 b Cert.KernelIdeal.Facts₀.shapeCasts_S128_S1x128) := by
  funext i
  obtain ⟨r, h, rfl⟩ : ∃ (r : Fin 100000) (h : Fin 128), i = ix2 r h := ⟨i 0, i 1, eq_ix2 i⟩
  show _ = A (ix2 r h) * v (ix2 r (0 : Fin 1))
      + shapeCast Cert.KernelIdeal.S1x128 b Cert.KernelIdeal.Facts₀.shapeCasts_S128_S1x128 (ix2 (0 : Fin 1) h)
  rw [addf_apply, mulf_apply, ScaledRows.broadcastInDim_a1_ab_apply, DenseLayer.bias_inDim_apply, shapeCast_a_1a_apply]

/-- The norm column and the sparse sum are the same host operations in both programs. -/
theorem normCol_eq (dst : IVec S1600000 32) :
    broadcastInDim S100000x1 ![0] bcast_S100000_S100000x1_0
        (Host.powf (F := Ideal)
          (maximumf (broadcastInDim S100000 ![] bcast_S_S100000 (id (constant (F := Ideal) S_ .f32 0x3F800000#32)))
            (Host.scatterAdd scatter_S100000_S1600000x1_S1600000_n_0_0_1
              (broadcastInDim S100000 ![] bcast_S_S100000 (constant (F := Ideal) S_ .f32 0x00000000#32))
              (broadcastInDim S1600000x1 ![0] bcast_S1600000_S1600000x1_0 dst)
              (broadcastInDim S1600000 ![] bcast_S_S1600000 (constant (F := Ideal) S_ .f32 0x3F800000#32))))
          (broadcastInDim S100000 ![] bcast_S_S100000 (constant (F := Ideal) S_ .f32 0xBF000000#32)))
      = Cert.KernelIdeal.Whole.normCol (F := Ideal) dst := rfl

/-- The reference's run with its result named as the kernel program's function of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25)
        = Cert.KernelIdeal.Whole.resultOf (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2⟩) (Cert.ReferenceIdeal.Value.run (F := Ideal) m ρ)
  rw [proj_eq, scaleBias_eq, normCol_eq]
  rfl

end Cert.ReferenceIdeal.RefValue

end
-- ==== Proof.lean ====
/-
  A graph convolution: with d the in-degree of each node counted from the destination indices and v = max(d, 1)^(−1/2),
  the result is  rst = (S ((X ⊙ v)·W)) ⊙ v + b,  where X ⊙ v scales row r of the features by v(r), ·W is the dense
  product with the weights, S sums along the edges (the rows named by the source indices gathered, then added into the
  rows named by the destination indices), and b is the bias added to every row.

  The kernel program computes v on the host, (X ⊙ v)·W in a first kernel region over 20 blocks of 5000 rows, S on the
  host, and (· ⊙ v) + b in a second kernel region over the same 20 blocks. The reference computes every stage on the
  host. The two differ only in how (X ⊙ v)·W and the last stage are spelt: read at an index (r, h) both spellings of
  the first are Σ_l (X(r, l)·v(r))·W(l, h) and both spellings of the last are A(r, h)·v(r) + b(h). The stages in
  between are the same operations applied to equal arrays, so the two results are equal on all extended reals; the
  finiteness of the inputs is not used.

  The three frames: the kernel program's two (at the word level and at the ideal values) are the generated frames;
  the reference has no kernel region, and its frame is its run with the result dropped. The idealization rewrote no
  operation, so there is nothing to preserve.
-/
import proofs.«178011_j14001593385076_1_alg».proof.Defs
import proofs.«178011_j14001593385076_1_alg».proof.Proof.Gen.Kernel
import proofs.«178011_j14001593385076_1_alg».proof.Proof.Gen.Kernel.Skeleton
import proofs.«178011_j14001593385076_1_alg».proof.Proof.Gen.Kernel.Launch
import proofs.«178011_j14001593385076_1_alg».proof.Proof.Gen.Kernel.Points
import proofs.«178011_j14001593385076_1_alg».proof.Proof.Gen.Kernel.Frame
import proofs.«178011_j14001593385076_1_alg».proof.Proof.Gen.KernelIdeal
import proofs.«178011_j14001593385076_1_alg».proof.Proof.Gen.KernelIdeal.Skeleton
import proofs.«178011_j14001593385076_1_alg».proof.Proof.Gen.KernelIdeal.Launch
import proofs.«178011_j14001593385076_1_alg».proof.Proof.Gen.KernelIdeal.Points
import proofs.«178011_j14001593385076_1_alg».proof.Proof.Gen.KernelIdeal.Frame
import proofs.«178011_j14001593385076_1_alg».proof.Proof.Gen.ReferenceIdeal
import proofs.«178011_j14001593385076_1_alg».proof.Proof.Gen.ReferenceIdeal.Run
import proofs.«178011_j14001593385076_1_alg».proof.Proof.Gen.Pre_finite_inputs
import proofs.«178011_j14001593385076_1_alg».proof.Proof.KernelValue
import proofs.«178011_j14001593385076_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the one function `resultOf` of the arguments, which agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
